-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S2x1x1024x1024 : Shape := ⟨4, ![2, 1, 1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .local _ .vmem, ⟨0, _⟩ => ⟨S2x1x1024x1024, .f32⟩
  | .local _ .vmem, ⟨1, _⟩ => ⟨S2x1x1024x1024, .f32⟩
  | .local _ .vmem, ⟨2, _⟩ => ⟨S2x1x1024x1024, .f32⟩
  | .local _ .vmem, ⟨3, _⟩ => ⟨S2x1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x1x1024x1024_S2x1x1024x1024_0_0_0_0 : ∀ a, (![0, 0, 0, 0] : Fin 4 → Nat) a + S2x1x1024x1024.size a ≤ S2x1x1024x1024.size a
  h_S2x1x1024x1024 : 0 < S2x1x1024x1024.numel
  rotates_S2x1x1024x1024_d2 : S2x1x1024x1024.Rotates 2 none
  iota_S2x1x1024x1024_d2_w32 : S2x1x1024x1024.Iotas .tc 32 [2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x1024x1024.size a ≤ S32x1x1024x1024.size a
  hwx0_0 : ∀ i : grid0.Coords, EltTy.bits .f32 = 32 ∨ (Rect.block (s := S32x1x1024x1024) S2x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1024x1024.size a ≤ S32x1x1024x1024.size a
  hwx0_1 : ∀ i : grid0.Coords, EltTy.bits .f32 = 32 ∨ (Rect.block (s := S32x1x1024x1024) S2x1x1024x1024.size (cc0_transform_1 i) (hinb0_1 i)).WholeWords (EltTy.packing .f32)

variable [Facts₀]

abbrev win0_0 : Pipeline.Window sig grid0 :=
  Pipeline.Window.ofSpec (Memref.whole main_arg0) S2x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1x1028x1028 : Shape := ⟨4, ![32, 1, 1028, 1028]⟩

abbrev nBuf : Space → Nat
  | .hbm => 10
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S_, .i32⟩
  | .hbm, ⟨2, _⟩ => ⟨S_, .f32⟩
  | .hbm, ⟨3, _⟩ => ⟨S32x1x1028x1028, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S32x1x1024x1024, .f32⟩
  | .hbm, ⟨9, _⟩ => ⟨S32x1x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v1 : Ref sig .tc := ⟨.hbm, 8, rfl⟩
abbrev main_v2 : Ref sig .tc := ⟨.hbm, 9, rfl⟩

abbrev nD : Nat := 1
abbrev τ : Topo := Topo.v7x

variable {F : FTy → Type} [FloatOps F]

class Facts₀ : Prop where
  pads_S32x1x1024x1024_S32x1x1028x1028_000_000_220_220 : S32x1x1024x1024.Pads (![0, 0, 2, 2] : Fin 4 → Nat) ![0, 0, 2, 2] ![0, 0, 0, 0] S32x1x1028x1028
  h_S_ : 0 < S_.numel
  sliceFits_S32x1x1028x1028_S32x1x1024x1024 : S32x1x1028x1028.Slices (fun _ => 0) S32x1x1024x1024

variable [Facts₀]

class Facts : Prop extends Facts₀ where

variable [Facts]
-- ==== Proof.ShiftedDifference.lean ====
/-
  The mathematics both programs compute, stated once and without either program.

  For an array `x` of four axes (batch, channel, row, column) the SHIFTED DIFFERENCE is

      (shiftSub x)[b, c, r, q] = x[b, c, r, q] − (if 2 ≤ r then x[b, c, r − 2, q] else 0):

  every row minus the row two above it, the first two rows minus zero. Three facts about it:

  * a rotation by two along the rows, masked to the rows from the third on with zero elsewhere, then subtracted, is the
    shifted difference (`rotate_mask_sub`): the rotation reads row `(r + R − 2) mod R`, which is `r − 2` from row two on,
    and the mask — "the row number, as a signed word, is at least two" — cuts off exactly the two rows the rotation
    brought around the end;
  * zero-padding by two on each side of the rows and of the columns, cutting the block that starts at row 0 and column 2,
    then subtracting, is the shifted difference too (`pad_slice_sub`): the cut reads the padded array at (r, q + 2),
    which is `x` at (r − 2, q) when r ≥ 2 and padding when r < 2 — the column never leaves the array;
  * the shifted difference acts along the rows only, so it commutes with taking a range of batches (`shiftSub_batches`).

  Subtraction is the extended reals'; no law of arithmetic is used, so no finiteness is needed.
-/
import Idealize.ShloMosaic.PureOps.Ideal
import Idealize.ShloMosaic.PureOps.Ideal.Laws
import Idealize.ShloMosaic.Lib.ValueIdx
import Idealize.ShloMosaic.Lib.KernelVsHost
import Idealize.ShloMosaic.Lib.DynamicIndex
import Idealize.ShloMosaic.Lib.Pipeline.Value

noncomputable section

namespace Cert.ShiftedDifference

open Idealize.ShloMosaic Idealize.ShloMosaic.ValueIdx

/-- The row coordinate of an index of a four-axis array is below the row count, written as the number itself. -/
theorem row_lt {B C R Q : Nat} (i : (⟨4, ![B, C, R, Q]⟩ : Shape).Idx) : (i 2).val < R := (i 2).isLt

/-- The index two rows above `i` (for `i` in row two or later). -/
def twoUp {B C R Q : Nat} (i : (⟨4, ![B, C, R, Q]⟩ : Shape).Idx) : (⟨4, ![B, C, R, Q]⟩ : Shape).Idx :=
  ix4 (i 0) (i 1) ⟨(i 2).val - 2, lt_of_le_of_lt (Nat.sub_le _ _) (row_lt i)⟩ (i 3)

/-- THE SHIFTED DIFFERENCE: each entry minus the entry two rows above it, minus zero in the first two rows. -/
def shiftSub {B C R Q : Nat} (x : (⟨4, ![B, C, R, Q]⟩ : Shape).Idx → EReal) : (⟨4, ![B, C, R, Q]⟩ : Shape).Idx → EReal :=
  fun i => x i - (if 2 ≤ (i 2).val then x (twoUp i) else 0)

/-! ## The row mask -/

/-- "Two is at most `n`", compared as signed 32-bit words, is the comparison of the numbers while `n` is below 2³¹. -/
theorem two_sle_ofNat {n : Nat} (hn : n < 2 ^ 31) : (2#32).sle (BitVec.ofNat 32 n) = decide (2 ≤ n) := by
  have e : (BitVec.ofNat 32 n).toInt = (n : Int) := toInt_ofNat_of_lt hn
  have e2 : (2#32 : BitVec 32).toInt = 2 := by decide
  simp only [BitVec.sle, e, e2]
  exact decide_eq_decide.mpr (by omega)

/-- The kernel's mask at an index: the always-true bit ANDed with "row number ≥ 2" is 1 exactly from row two on. -/
theorem mask_bit {n : Nat} (hn : n < 2 ^ 31) :
    IntOp.andi (1#1) (IntOp.cmpi .sge (BitVec.ofNat 32 n) (2#32)) = if 2 ≤ n then 1#1 else 0#1 := by
  show (1#1 : BitVec 1) &&& BitVec.ofBool ((2#32).sle (BitVec.ofNat 32 n)) = _
  rw [two_sle_ofNat hn]
  by_cases h : 2 ≤ n
  · rw [if_pos h, decide_eq_true h]; decide
  · rw [if_neg h, decide_eq_false h]; decide

/-! ## The kernel's spelling: rotate, mask, select, subtract -/

/-- A block rotated by two along its rows, kept from row two on and replaced by the zero word before, then subtracted
    from the block, is the block's shifted difference. -/
theorem rotate_mask_sub {B C Q : Nat} (v : FVec Ideal ⟨4, ![B, C, 1024, Q]⟩ .f32)
    (hr : (⟨4, ![B, C, 1024, Q]⟩ : Shape).Rotates (2 : Fin 4) none)
    (hi : (⟨4, ![B, C, 1024, Q]⟩ : Shape).Iotas .tc 32 [(2 : Fin 4)]) :
    subf v (select (andi (broadcast ⟨4, ![B, C, 1024, Q]⟩ 1#1)
        (cmpi .sge (iota .tc ⟨4, ![B, C, 1024, Q]⟩ 32 [(2 : Fin 4)] hi) (broadcast ⟨4, ![B, C, 1024, Q]⟩ 2#32)))
        (dynamicRotate (2 : Fin 4) 2#32 none v hr)
        (broadcast ⟨4, ![B, C, 1024, Q]⟩ (Scalar.ofBits (F := Ideal) .f32 0x00000000#32)))
      = shiftSub v := by
  funext j
  obtain ⟨b, c, r, q, rfl⟩ : ∃ (b : Fin B) (c : Fin C) (r : Fin 1024) (q : Fin Q), j = ix4 b c r q :=
    ⟨j 0, j 1, j 2, j 3, eq_ix4 j⟩
  have hr' : r.val < 1024 := r.isLt
  have hbit : (andi (broadcast ⟨4, ![B, C, 1024, Q]⟩ 1#1)
        (cmpi .sge (iota .tc ⟨4, ![B, C, 1024, Q]⟩ 32 [(2 : Fin 4)] hi) (broadcast ⟨4, ![B, C, 1024, Q]⟩ 2#32))) (ix4 b c r q)
      = if 2 ≤ r.val then 1#1 else 0#1 := by
    show IntOp.andi (1#1) (IntOp.cmpi .sge (BitVec.ofNat 32 (0 * 1024 + r.val)) (2#32)) = _
    rw [Nat.zero_mul, Nat.zero_add]
    exact mask_bit (by omega)
  show v (ix4 b c r q) - Scalar.select _ (dynamicRotate (2 : Fin 4) 2#32 none v hr (ix4 b c r q)) (Ideal.ofBits .f32 0x00000000#32)
    = v (ix4 b c r q) - (if 2 ≤ r.val then v (twoUp (ix4 b c r q)) else 0)
  rw [hbit]
  by_cases h : 2 ≤ r.val
  · rw [if_pos h, if_pos h, select_one]
    refine congrArg (fun z => v (ix4 b c r q) - z) ?_
    refine dynamicRotate_apply (2 : Fin 4) 2#32 v hr _ _ fun a => ?_
    match a with
    | ⟨0, _⟩ => rfl
    | ⟨1, _⟩ => rfl
    | ⟨2, _⟩ =>
      show r.val - 2 = (r.val + 1024 - (2#32 : BitVec 32).toNat % 1024) % 1024
      have : (2#32 : BitVec 32).toNat = 2 := rfl
      omega
    | ⟨3, _⟩ => rfl
  · rw [if_neg h, if_neg h, select_zero, Ideal.ofBits_zero_f32]

/-! ## The reference's spelling: pad, cut, subtract -/

/-- An array padded with `z` by two rows and two columns on every side, cut at row 0 and column 2 back to its own
    shape, then subtracted from the array, is the array's shifted difference when `z` is zero. The cut's starts are
    given as signed integers and clamped into the padded array; (0, 0, 0, 2) is inside, so the clamp changes nothing. -/
theorem pad_slice_sub (x : FVec Ideal ⟨4, ![32, 1, 1024, 1024]⟩ .f32) {u : Shape} (z : u.Idx → EReal) (hu : 0 < u.numel)
    (hz : z (Shape.Idx.first hu) = 0)
    (hp : (⟨4, ![32, 1, 1024, 1024]⟩ : Shape).Pads ![0, 0, 2, 2] ![0, 0, 2, 2] ![0, 0, 0, 0] ⟨4, ![32, 1, 1028, 1028]⟩)
    (hs : (⟨4, ![32, 1, 1028, 1028]⟩ : Shape).Slices (fun _ => 0) ⟨4, ![32, 1, 1024, 1024]⟩)
    (start : Fin 4 → Int) (hstart : ∀ a, start a = (((![0, 0, 0, 2] : Fin 4 → Nat) a : Nat) : Int)) :
    subf x (Host.dynamicSlice ⟨4, ![32, 1, 1024, 1024]⟩
        (pad ⟨4, ![32, 1, 1028, 1028]⟩ ![0, 0, 2, 2] ![0, 0, 2, 2] ![0, 0, 0, 0] x z hp hu) start hs)
      = shiftSub x := by
  have hoff : (⟨4, ![32, 1, 1028, 1028]⟩ : Shape).Slices (![0, 0, 0, 2] : Fin 4 → Nat) ⟨4, ![32, 1, 1024, 1024]⟩ := by decide
  rw [Host.dynamicSlice_eq_extractStridedSlice _ _ start ![0, 0, 0, 2] hs hoff hstart]
  funext j
  obtain ⟨b, c, r, q, rfl⟩ : ∃ (b : Fin 32) (c : Fin 1) (r : Fin 1024) (q : Fin 1024), j = ix4 b c r q :=
    ⟨j 0, j 1, j 2, j 3, eq_ix4 j⟩
  have hr' : r.val < 1024 := r.isLt
  have hq' : q.val < 1024 := q.isLt
  show x (ix4 b c r q) - extractStridedSlice _ _ _ hoff (ix4 b c r q) = x (ix4 b c r q) - (if 2 ≤ r.val then x (twoUp (ix4 b c r q)) else 0)
  refine congrArg (fun w => x (ix4 b c r q) - w) ?_
  -- the cut reads the padded array at (b, c, r, q + 2)
  refine (extractStridedSlice_apply _ _ hoff (ix4 b c r q)
    (ix4 b c (⟨r.val, by omega⟩ : Fin 1028) (⟨q.val + 2, by omega⟩ : Fin 1028)) (fun a => by
      match a with
      | ⟨0, _⟩ => show b.val = 0 + b.val; omega
      | ⟨1, _⟩ => show c.val = 0 + c.val; omega
      | ⟨2, _⟩ => show r.val = 0 + r.val; omega
      | ⟨3, _⟩ => show q.val + 2 = 2 + q.val; omega)).trans ?_
  by_cases h : 2 ≤ r.val
  · rw [if_pos h]
    refine pad_apply_of_inside _ _ _ x z hp hu _ _ fun a => ?_
    match a with
    | ⟨0, _⟩ => show b.val = 0 + b.val * (0 + 1); omega
    | ⟨1, _⟩ => show c.val = 0 + c.val * (0 + 1); omega
    | ⟨2, _⟩ => show r.val = 2 + (r.val - 2) * (0 + 1); omega
    | ⟨3, _⟩ => show q.val + 2 = 2 + q.val * (0 + 1); omega
  · rw [if_neg h]
    refine (pad_apply_of_not_inside _ _ _ x z hp hu _ (2 : Fin 4) fun hin => h ?_).trans hz
    exact hin.1

/-! ## Ranges of batches -/

/-- The shifted difference moves along the rows only: of an array read through a map of the batch coordinate (a block
    of batches read out of a longer array) it is the shifted difference of the array read through the same map. -/
theorem shiftSub_batches {B B' C R Q : Nat} (X : (⟨4, ![B', C, R, Q]⟩ : Shape).Idx → EReal) (f : Fin B → Fin B') :
    shiftSub (fun y : (⟨4, ![B, C, R, Q]⟩ : Shape).Idx => X (ix4 (f (y 0)) (y 1) (y 2) (y 3)))
      = fun y => shiftSub X (ix4 (f (y 0)) (y 1) (y 2) (y 3)) := by
  funext y
  rfl

end Cert.ShiftedDifference

end
-- ==== Proof.KernelValue.lean ====
/-
  What the idealized kernel leaves in its result array, as ONE function of its argument array.

  The grid has 16 points; point `t` stages batches `2t` and `2t + 1` of the argument (all channels, rows and columns) and
  writes the same batches of the result. On the staged block the body computes the block's shifted difference — the
  block minus itself rotated two rows down, the two wrapped rows replaced by zero. The shifted difference moves along
  the rows only, and a block holds whole rows-by-columns planes, so what point `t` writes is the block of batches
  `2t, 2t + 1` of the shifted difference of the WHOLE argument. The 16 blocks cover all 32 batches, hence the result array
  ends as the shifted difference of the argument array.
-/
import proofs.«136266_j29454885716034_1_alg».proof.Proof.Gen.KernelIdeal.Value
import proofs.«136266_j29454885716034_1_alg».proof.Proof.ShiftedDifference

set_option maxRecDepth 16384

noncomputable section

namespace Cert.KernelIdeal.ShiftValue

open Cert.KernelIdeal Cert.KernelIdeal.Gen Idealize.ShloMosaic Idealize.ShloMosaic.TcCoe Idealize.SL.Sem
open Idealize.ShloMosaic.ValueIdx Cert.ShiftedDifference
open Idealize.ShloMosaic.Pipeline (Dat)

variable (m : (ℓ : Loc nD τ sig) → Buf (Elt Ideal) ℓ) (ρ : Dev nD → PrngReg)

/-- The body's one load and one store go through the whole staging buffer: the rectangle at offset zero. -/
theorem zero_offset : (![0, 0, 0, 0] : Fin 4 → Nat) = fun _ => 0 := funext fun a => by fin_cases a <;> rfl

/-- The stored value is the shifted difference of the loaded block. -/
theorem payload_eq (v : Vec Ideal S2x1x1024x1024 .f32) : k0_pay1 (F := Ideal) v = shiftSub v :=
  rotate_mask_sub v _ _

/-- The printed index maps, decided over the 16 grid points: both windows sit at batch-block `t` and at block 0 of every
    other axis. -/
theorem index_facts : ∀ t : Fin cfg0.N, t.val < 16
    ∧ win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- Batch `r` (0 or 1) of point `t`'s block is batch `2t + r` of the array. -/
def batchOf (t : Fin cfg0.N) (r : Fin 2) : Fin 32 := ⟨t.val * 2 + r.val, by have := (index_facts t).1; have := r.isLt; omega⟩

/-- Where the argument's block at point `t` sits in the argument array. -/
theorem emb_in (t : Fin cfg0.N) (y : S2x1x1024x1024.Idx) :
    ((cfg0.win 0).blk t).view.emb y = ix4 (batchOf t (y 0)) (y 1) (y 2) (y 3) := by
  obtain ⟨-, e0, e1, e2, e3, -⟩ := index_facts t
  funext a; apply Fin.ext
  match a with
  | ⟨0, _⟩ => show win0_0.index t (0 : Fin 4) * 2 + 1 * (y 0).val = t.val * 2 + (y 0).val; omega
  | ⟨1, _⟩ => show win0_0.index t (1 : Fin 4) * 1 + 1 * (y 1).val = (y 1).val; omega
  | ⟨2, _⟩ => show win0_0.index t (2 : Fin 4) * 1024 + 1 * (y 2).val = (y 2).val; omega
  | ⟨3, _⟩ => show win0_0.index t (3 : Fin 4) * 1024 + 1 * (y 3).val = (y 3).val; omega

/-- Where the result's block at point `t` sits in the result array: the same place. -/
theorem emb_out (t : Fin cfg0.N) (y : S2x1x1024x1024.Idx) :
    ((cfg0.win 1).blk t).view.emb y = ix4 (batchOf t (y 0)) (y 1) (y 2) (y 3) := by
  obtain ⟨-, -, -, -, -, e0, e1, e2, e3⟩ := index_facts t
  funext a; apply Fin.ext
  match a with
  | ⟨0, _⟩ => show win0_1.index t (0 : Fin 4) * 2 + 1 * (y 0).val = t.val * 2 + (y 0).val; omega
  | ⟨1, _⟩ => show win0_1.index t (1 : Fin 4) * 1 + 1 * (y 1).val = (y 1).val; omega
  | ⟨2, _⟩ => show win0_1.index t (2 : Fin 4) * 1024 + 1 * (y 2).val = (y 2).val; omega
  | ⟨3, _⟩ => show win0_1.index t (3 : Fin 4) * 1024 + 1 * (y 3).val = (y 3).val; omega

/-- WHAT POINT `t` WRITES BACK is block `t` of the shifted difference of the argument array. -/
theorem flushed_eq (c : Dev nD) (t : Fin cfg0.N) :
    (dats m 0 c).flushed 1 t = ((cfg0.win 1).blk t).view.read (Elt Ideal) (shiftSub (V m c main_arg0)) := by
  rw [Value.flushed1]
  unfold out0_1
  rw [View.canon_unit_zero zero_offset]
  simp only [View.ld_unit_zero (S := S2x1x1024x1024) zero_offset]
  rw [payload_eq]
  have hblk : (iblk m c 0 t : S2x1x1024x1024.Idx → EReal)
      = fun y : S2x1x1024x1024.Idx => V m c main_arg0 (ix4 (batchOf t (y 0)) (y 1) (y 2) (y 3)) :=
    funext fun y => congrArg (V m c main_arg0) (emb_in t y)
  funext j
  show shiftSub (iblk m c 0 t : S2x1x1024x1024.Idx → EReal) j = shiftSub (V m c main_arg0) (((cfg0.win 1).blk t).view.emb j)
  rw [hblk, shiftSub_batches, emb_out]
  rfl

/-- An index of the result array is in point `t`'s block iff each coordinate is in the block's range on its axis. -/
theorem mem_blk (t : Fin cfg0.N) (i : S32x1x1024x1024.Idx) :
    i ∈ ((cfg0.win 1).blk t).view.set ↔ ∀ a : Fin 4, win0_1.index t a * S2x1x1024x1024.size a ≤ (i a).val
      ∧ (i a).val < win0_1.index t a * S2x1x1024x1024.size a + S2x1x1024x1024.size a := by
  show i ∈ ((View.whole main_v0).slice (win0_1.rect t)).set ↔ _
  rw [View.set_slice_whole, Rect.mem_set_unit]
  exact Iff.rfl

/-- Every index of the result array is in some point's block: batch `b` is written by point `b / 2`. -/
theorem cover (i : S32x1x1024x1024.Idx) :
    ∃ t : Fin cfg0.N, (cfg0.win 1).flush t = true ∧ i ∈ ((cfg0.win 1).blk t).view.set := by
  have hi0 : (i 0).val < 32 := (i 0).isLt
  have hi1 : (i 1).val < 1 := (i 1).isLt
  have hi2 : (i 2).val < 1024 := (i 2).isLt
  have hi3 : (i 3).val < 1024 := (i 3).isLt
  have hN : (i 0).val / 2 < cfg0.N := by
    show (i 0).val / 2 < 16
    omega
  refine ⟨⟨(i 0).val / 2, hN⟩, flush0_1 _, ?_⟩
  obtain ⟨-, -, -, -, -, e0, e1, e2, e3⟩ := index_facts ⟨(i 0).val / 2, hN⟩
  have e0' : win0_1.index ⟨(i 0).val / 2, hN⟩ (0 : Fin 4) = (i 0).val / 2 := e0
  rw [mem_blk]
  intro a
  match a with
  | ⟨0, _⟩ => show win0_1.index ⟨(i 0).val / 2, hN⟩ (0 : Fin 4) * 2 ≤ (i 0).val ∧ (i 0).val < win0_1.index ⟨(i 0).val / 2, hN⟩ (0 : Fin 4) * 2 + 2; omega
  | ⟨1, _⟩ => show win0_1.index ⟨(i 0).val / 2, hN⟩ (1 : Fin 4) * 1 ≤ (i 1).val ∧ (i 1).val < win0_1.index ⟨(i 0).val / 2, hN⟩ (1 : Fin 4) * 1 + 1; omega
  | ⟨2, _⟩ => show win0_1.index ⟨(i 0).val / 2, hN⟩ (2 : Fin 4) * 1024 ≤ (i 2).val ∧ (i 2).val < win0_1.index ⟨(i 0).val / 2, hN⟩ (2 : Fin 4) * 1024 + 1024; omega
  | ⟨3, _⟩ => show win0_1.index ⟨(i 0).val / 2, hN⟩ (3 : Fin 4) * 1024 ≤ (i 3).val ∧ (i 3).val < win0_1.index ⟨(i 0).val / 2, hN⟩ (3 : Fin 4) * 1024 + 1024; omega

/-- THE RESULT ARRAY after the run is the shifted difference of the argument array as launched. -/
theorem final (c : Dev nD) :
    (dats m 0 c).arrAt 1 cfg0.N = shiftSub (m ((c : Thread nD τ).loc main_arg0)) :=
  (dats m 0 c).arrAt_eq_of_cover 1 (shiftSub (V m c main_arg0)) (fun t _ => flushed_eq m c t) cover

/-- The kernel's run with its result named: the shifted difference of the argument, the argument unchanged. -/
theorem run : θ_run defs (onTc (τ := τ) (main (F := Ideal))) ⟨m, fun _ => 0, ρ⟩ fun r => ∀ c : Dev nD,
      r.2.mem ((c : Thread nD τ).loc main_v0) = shiftSub (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ShiftValue

end
-- ==== Proof.ReferenceValue.lean ====
/-
  What the idealized reference computes, as the same function of its argument array as the kernel's.

  The reference pads the array with zeros — the integer zero converted to a float, which at the ideal values is the real
  number zero — by two rows and two columns on every side, cuts the block starting at row 0 and column 2 back to the
  array's shape, and subtracts it from the array. The cut's four start words are 0, 0, 0 and 2 read as signed integers,
  which lie inside the padded array, so the cut is the plain slice there; it reads `x` two rows up where there is such a
  row and the padding zero in the first two rows: the shifted difference of `x`.
-/
import proofs.«136266_j29454885716034_1_alg».proof.Proof.RefRun
import proofs.«136266_j29454885716034_1_alg».proof.Proof.ShiftedDifference

noncomputable section

namespace Cert.ReferenceIdeal.ShiftValue

open Cert.ReferenceIdeal Cert.ReferenceIdeal.Gen Idealize.ShloMosaic Idealize.ShloMosaic.TcCoe Idealize.SL.Sem
open Cert.ShiftedDifference

/-- The padding value: the integer zero converted to a float is zero. -/
theorem pad_value : (sitofp (F := Ideal) .f32 (constantI S_ 32 0#32)) (Shape.Idx.first h_S_) = 0 := by
  show ((((0#32 : BitVec 32).toInt : ℤ) : ℝ) : EReal) = 0
  simp

/-- The reference run's result term is the shifted difference of the argument. -/
theorem result_eq (x : FVec Ideal S32x1x1024x1024 .f32) :
    subf (F := Ideal) x (Host.dynamicSlice S32x1x1024x1024
        (pad S32x1x1028x1028 ![0, 0, 2, 2] ![0, 0, 2, 2] ![0, 0, 0, 0] x (sitofp (F := Ideal) .f32 (constantI S_ 32 0#32))
          pads_S32x1x1024x1024_S32x1x1028x1028_000_000_220_220 h_S_)
        (fun k => (((![constantI S_ 32 0#32, constantI S_ 32 0#32, constantI S_ 32 0#32, constantI S_ 32 2#32] :
          Fin 4 → (⟨S_, .i32⟩ : BufTy).Contents (Elt Ideal))) k (Shape.Idx.first h_S_)).toInt)
        sliceFits_S32x1x1028x1028_S32x1x1024x1024)
      = shiftSub x :=
  pad_slice_sub x _ h_S_ pad_value _ _ _ (fun a => by fin_cases a <;> rfl)

end Cert.ReferenceIdeal.ShiftValue

end
-- ==== Proof.lean ====
/- The proof of `Cert.Claim`: the kernel and its reference both compute the SHIFTED DIFFERENCE of their argument,

       out[b, c, r, q] = x[b, c, r, q] − (if 2 ≤ r then x[b, c, r − 2, q] else 0),

   a 5×5 cross-correlation whose only taps are +1 at the centre and −1 two rows up, with zero padding.
   The kernel walks the 32 batches two at a time; on each pair it rotates the block two rows down, masks the two rows that
   wrapped around to zero, and subtracts (Proof/KernelValue.lean: each grid point writes its block of the shifted
   difference of the whole array, and the blocks cover the array). The reference pads with zeros, cuts the block that
   starts two columns in and at row zero, and subtracts (Proof/ReferenceValue.lean). Both spellings are the one function
   of Proof/ShiftedDifference.lean, entry by entry, with no arithmetic law between them: the two results are the same
   difference of the same two extended reals, so the inputs' finiteness is never used.
   The three frames: the kernel's two are the generated frame certificates; the reference's is its run with the result
   forgotten. The idealization rewrote nothing, so there is nothing to preserve. -/
import proofs.«136266_j29454885716034_1_alg».proof.Defs
import proofs.«136266_j29454885716034_1_alg».proof.Proof.Gen.Kernel
import proofs.«136266_j29454885716034_1_alg».proof.Proof.Gen.Kernel.Skeleton
import proofs.«136266_j29454885716034_1_alg».proof.Proof.Gen.Kernel.Launch
import proofs.«136266_j29454885716034_1_alg».proof.Proof.Gen.Kernel.Points
import proofs.«136266_j29454885716034_1_alg».proof.Proof.Gen.Kernel.Frame
import proofs.«136266_j29454885716034_1_alg».proof.Proof.Gen.KernelIdeal
import proofs.«136266_j29454885716034_1_alg».proof.Proof.Gen.KernelIdeal.Skeleton
import proofs.«136266_j29454885716034_1_alg».proof.Proof.Gen.KernelIdeal.Launch
import proofs.«136266_j29454885716034_1_alg».proof.Proof.Gen.KernelIdeal.Points
import proofs.«136266_j29454885716034_1_alg».proof.Proof.Gen.KernelIdeal.Frame
import proofs.«136266_j29454885716034_1_alg».proof.Proof.Gen.ReferenceIdeal
import proofs.«136266_j29454885716034_1_alg».proof.Proof.Gen.Pre_finite_inputs
import proofs.«136266_j29454885716034_1_alg».proof.Proof.Gen.KernelIdeal.Value
import proofs.«136266_j29454885716034_1_alg».proof.Proof.RefRun
import proofs.«136266_j29454885716034_1_alg».proof.Proof.ShiftedDifference
import proofs.«136266_j29454885716034_1_alg».proof.Proof.KernelValue
import proofs.«136266_j29454885716034_1_alg».proof.Proof.ReferenceValue
import Idealize.ShloMosaic.Adequacy
import Idealize.ShloMosaic.Init

noncomputable section

namespace Cert.Proof

open Idealize.ShloMosaic Idealize.SL.Sem Cert.ShiftedDifference

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the shifted difference of the argument they were launched with; the arguments agree. -/
theorem algebraic : Cert.algebraic_KernelIdeal_ReferenceIdeal := by
  intro m ρ m' ρ' _ hagree
  refine ⟨_, Cert.KernelIdeal.ShiftValue.run m ρ, ?_⟩
  refine (θ_run Cert.ReferenceIdeal.defs _ _).mono (fun _ h c => ⟨(h c).1.trans ?_, (h c).2⟩)
    (Cert.ReferenceIdeal.ValueP.run (F := Ideal) m' ρ')
  rw [hagree c]
  exact Cert.ReferenceIdeal.ShiftValue.result_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
